-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x2048x6 : Shape := ⟨3, ![1024, 2048, 6]⟩
abbrev S2048x64 : Shape := ⟨2, ![2048, 64]⟩
abbrev S_ : Shape := ⟨0, ![]⟩

class Facts : Prop where
  bcast_S_S1024x2048x6 : S_.BroadcastsInDim S1024x2048x6 (![] : Fin 0 → Fin S1024x2048x6.rank)
  reducesTo_S1024x2048x6_S_d0_1_2 : S1024x2048x6.ReducesTo [0, 1, 2] S_
  h_S_ : 0 < S_.numel
  bcast_S_S2048x64 : S_.BroadcastsInDim S2048x64 (![] : Fin 0 → Fin S2048x64.rank)
  reducesTo_S2048x64_S_d0_1 : S2048x64.ReducesTo [0, 1] S_

variable [Facts]

def fn {F : FTy → Type} [FloatOps F] (main_arg0 : FVec F S1024x2048x6 .f32) (main_arg1 : FVec F S2048x64 .f32) : IVec S_ 1 :=
  let main_v0 : FVec F S1024x2048x6 .f32 := Host.absf main_arg0
  let main_cst : FVec F S_ .f32 := constant S_ .f32 0x7F800000#32
  let main_v1 : FVec F S1024x2048x6 .f32 := broadcastInDim S1024x2048x6 ![] bcast_S_S1024x2048x6 main_cst
  let main_v2 : IVec S1024x2048x6 1 := cmpf .olt main_v0 main_v1
  let main_c : IVec S_ 1 := constantI S_ 1 1#1
  let main_v3 : IVec S_ 1 := (fun x v => Host.reduce IntOp.andi x v reducesTo_S1024x2048x6_S_d0_1_2 h_S_) main_v2 main_c
  let main_v4 : FVec F S2048x64 .f32 := Host.absf main_arg1
  let main_cst_0 : FVec F S_ .f32 := constant S_ .f32 0x7F800000#32
  let main_v5 : FVec F S2048x64 .f32 := broadcastInDim S2048x64 ![] bcast_S_S2048x64 main_cst_0
  let main_v6 : IVec S2048x64 1 := cmpf .olt main_v4 main_v5
  let main_c_1 : IVec S_ 1 := constantI S_ 1 1#1
  let main_v7 : IVec S_ 1 := (fun x v => Host.reduce IntOp.andi x v reducesTo_S2048x64_S_d0_1 h_S_) main_v6 main_c_1
  let main_v8 : IVec S_ 1 := andi main_v3 main_v7
  main_v8
-- ==== Kernel.lean ====
abbrev S1024x2048x6 : Shape := ⟨3, ![1024, 2048, 6]⟩
abbrev S2048x64 : Shape := ⟨2, ![2048, 64]⟩
abbrev S12x64 : Shape := ⟨2, ![12, 64]⟩
abbrev S1024x2048 : Shape := ⟨2, ![1024, 2048]⟩
abbrev S128x128x6 : Shape := ⟨3, ![128, 128, 6]⟩
abbrev S128x64 : Shape := ⟨2, ![128, 64]⟩
abbrev S128x128 : Shape := ⟨2, ![128, 128]⟩
abbrev S128x128x12 : Shape := ⟨3, ![128, 128, 12]⟩
abbrev S16384x12 : Shape := ⟨2, ![16384, 12]⟩
abbrev S16384x64 : Shape := ⟨2, ![16384, 64]⟩
abbrev S128x128x64 : Shape := ⟨3, ![128, 128, 64]⟩
abbrev S1x128x64 : Shape := ⟨3, ![1, 128, 64]⟩

abbrev nBuf : Space → Nat
  | .hbm => 4
  | .vmem => 7
  | .smem => 0
  | _ => 0

abbrev bufTy : (tb : Table) → Fin (tcTables nBuf tb) → BufTy
  | .hbm, ⟨0, _⟩ => ⟨S1024x2048x6, .f32⟩
  | .hbm, ⟨1, _⟩ => ⟨S2048x64, .f32⟩
  | .hbm, ⟨2, _⟩ => ⟨S12x64, .f32⟩
  | .hbm, ⟨3, _⟩ => ⟨S1024x2048, .f32⟩
  | .local _ .vmem, ⟨0, _⟩ => ⟨S128x128x6, .f32⟩
  | .local _ .vmem, ⟨1, _⟩ => ⟨S128x128x6, .f32⟩
  | .local _ .vmem, ⟨2, _⟩ => ⟨S128x64, .f32⟩
  | .local _ .vmem, ⟨3, _⟩ => ⟨S128x64, .f32⟩
  | .local _ .vmem, ⟨4, _⟩ => ⟨S12x64, .f32⟩
  | .local _ .vmem, ⟨5, _⟩ => ⟨S128x128, .f32⟩
  | .local _ .vmem, ⟨6, _⟩ => ⟨S128x128, .f32⟩
  | _, _ => ⟨S1024x2048x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S128x128x6 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S12x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S128x128x6_S128x128x6_0_0_0 : ∀ a, (![0, 0, 0] : Fin 3 → Nat) a + S128x128x6.size a ≤ S128x128x6.size a
  h_S128x128x6 : 0 < S128x128x6.numel
  concatenates_S128x128x6_S128x128x6_S128x128x12_d2 : Shape.Concatenates [S128x128x6, S128x128x6] S128x128x12 2
  shapeCasts_S128x128x12_S16384x12 : S128x128x12.ShapeCasts S16384x12
  inb_S12x64_S12x64_0_0 : ∀ a, (![0, 0] : Fin 2 → Nat) a + S12x64.size a ≤ S12x64.size a
  h_S12x64 : 0 < S12x64.numel
  shapeCasts_S16384x64_S128x128x64 : S16384x64.ShapeCasts S128x128x64
  inb_S128x64_S128x64_0_0 : ∀ a, (![0, 0] : Fin 2 → Nat) a + S128x64.size a ≤ S128x64.size a
  h_S128x64 : 0 < S128x64.numel
  shapeCasts_S128x64_S1x128x64 : S128x64.ShapeCasts S1x128x64
  shapeCasts_S1x128x64_S1x128x64 : S1x128x64.ShapeCasts S1x128x64
  broadcasts_S1x128x64_S128x128x64 : S1x128x64.Broadcasts S128x128x64
  reduces_S128x128x64_S128x128 : S128x128x64.Reduces [2] S128x128
  inb_S128x128_S128x128_0_0 : ∀ a, (![0, 0] : Fin 2 → Nat) a + S128x128.size a ≤ S128x128.size a
  h_S128x128 : 0 < S128x128.numel
  dot_S16384x12_S12x64_S16384x64_1_0_0_1_n_n_wf : DotDims.WF S16384x12 S12x64 S16384x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x128x6.size a ≤ S1024x2048x6.size a
  hwx0_0 : ∀ i : grid0.Coords, EltTy.bits .f32 = 32 ∨ (Rect.block (s := S1024x2048x6) S128x128x6.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S2048x64.size a
  hwx0_1 : ∀ i : grid0.Coords, EltTy.bits .f32 = 32 ∨ (Rect.block (s := S2048x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S12x64.size a ≤ S12x64.size a
  hwx0_2 : ∀ i : grid0.Coords, EltTy.bits .f32 = 32 ∨ (Rect.block (s := S12x64) S12x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S1024x2048.size a
  hwx0_3 : ∀ i : grid0.Coords, EltTy.bits .f32 = 32 ∨ (Rect.block (s := S1024x2048) S128x128.size (cc0_transform_3 i) (hinb0_3 i)).WholeWords (EltTy.packing .f32)

variable [Facts₀]

def dot_S16384x12_S12x64_S16384x64_1_0_0_1_n_n : DotDims S16384x12 S12x64 S16384x64 where
  lhsContracting := [1]
  rhsContracting := [0]
  lhsNonContracting := [0]
  rhsNonContracting := [1]
  lhsBatch := []
  rhsBatch := []
  wf := dot_S16384x12_S12x64_S16384x64_1_0_0_1_n_n_wf

abbrev win0_0 : Pipeline.Window sig grid0 :=
  Pipeline.Window.ofSpec (Memref.whole main_arg0) S128x128x6.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_cst) S12x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S128x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1024x2048x6 : Shape := ⟨3, ![1024, 2048, 6]⟩
abbrev S2048x64 : Shape := ⟨2, ![2048, 64]⟩
abbrev S12x64 : Shape := ⟨2, ![12, 64]⟩
abbrev S_ : Shape := ⟨0, ![]⟩
abbrev S1024x2048x12 : Shape := ⟨3, ![1024, 2048, 12]⟩
abbrev S1024x2048x64 : Shape := ⟨3, ![1024, 2048, 64]⟩
abbrev S1x2048x64 : Shape := ⟨3, ![1, 2048, 64]⟩
abbrev S1024x2048 : Shape := ⟨2, ![1024, 2048]⟩

abbrev nBuf : Space → Nat
  | .hbm => 29
  | .vmem => 0
  | .smem => 0
  | _ => 0

abbrev bufTy : (tb : Table) → Fin (tcTables nBuf tb) → BufTy
  | .hbm, ⟨0, _⟩ => ⟨S1024x2048x6, .f32⟩
  | .hbm, ⟨1, _⟩ => ⟨S2048x64, .f32⟩
  | .hbm, ⟨2, _⟩ => ⟨S12x64, .f32⟩
  | .hbm, ⟨3, _⟩ => ⟨S_, .f32⟩
  | .hbm, ⟨4, _⟩ => ⟨S1024x2048x6, .f32⟩
  | .hbm, ⟨5, _⟩ => ⟨S1024x2048x6, .f32⟩
  | .hbm, ⟨6, _⟩ => ⟨S1024x2048x12, .f32⟩
  | .hbm, ⟨7, _⟩ => ⟨S_, .f32⟩
  | .hbm, ⟨8, _⟩ => ⟨S1024x2048x12, .f32⟩
  | .hbm, ⟨9, _⟩ => ⟨S1024x2048x12, .f32⟩
  | .hbm, ⟨10, _⟩ => ⟨S_, .f32⟩
  | .hbm, ⟨11, _⟩ => ⟨S1024x2048x12, .f32⟩
  | .hbm, ⟨12, _⟩ => ⟨S1024x2048x12, .f32⟩
  | .hbm, ⟨13, _⟩ => ⟨S1024x2048x12, .f32⟩
  | .hbm, ⟨14, _⟩ => ⟨S1024x2048x64, .f32⟩
  | .hbm, ⟨15, _⟩ => ⟨S1024x2048x64, .f32⟩
  | .hbm, ⟨16, _⟩ => ⟨S2048x64, .f32⟩
  | .hbm, ⟨17, _⟩ => ⟨S2048x64, .f32⟩
  | .hbm, ⟨18, _⟩ => ⟨S_, .f32⟩
  | .hbm, ⟨19, _⟩ => ⟨S2048x64, .f32⟩
  | .hbm, ⟨20, _⟩ => ⟨S2048x64, .f32⟩
  | .hbm, ⟨21, _⟩ => ⟨S_, .f32⟩
  | .hbm, ⟨22, _⟩ => ⟨S2048x64, .f32⟩
  | .hbm, ⟨23, _⟩ => ⟨S2048x64, .f32⟩
  | .hbm, ⟨24, _⟩ => ⟨S1x2048x64, .f32⟩
  | .hbm, ⟨25, _⟩ => ⟨S1024x2048x64, .f32⟩
  | .hbm, ⟨26, _⟩ => ⟨S1024x2048x64, .f32⟩
  | .hbm, ⟨27, _⟩ => ⟨S_, .f32⟩
  | .hbm, ⟨28, _⟩ => ⟨S1024x2048, .f32⟩
  | _, _ => ⟨S1024x2048x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_cst : Ref sig .tc := ⟨.hbm, 7, rfl⟩
abbrev main_call0_v0 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩

abbrev nD : Nat := 1
abbrev τ : Topo := Topo.v7x

variable {F : FTy → Type} [FloatOps F]

class Facts₀ : Prop where
  bcast_S_S1024x2048x6 : S_.BroadcastsInDim S1024x2048x6 (![] : Fin 0 → Fin S1024x2048x6.rank)
  concatenates_S1024x2048x6_S1024x2048x6_S1024x2048x12_d2 : Shape.Concatenates [S1024x2048x6, S1024x2048x6] S1024x2048x12 2
  bcast_S_S1024x2048x12 : S_.BroadcastsInDim S1024x2048x12 (![] : Fin 0 → Fin S1024x2048x12.rank)
  bcast_S_S2048x64 : S_.BroadcastsInDim S2048x64 (![] : Fin 0 → Fin S2048x64.rank)
  bcast_S2048x64_S1x2048x64_1_2 : S2048x64.BroadcastsInDim S1x2048x64 (![1, 2] : Fin 2 → Fin S1x2048x64.rank)
  bcast_S1x2048x64_S1024x2048x64_0_1_2 : S1x2048x64.BroadcastsInDim S1024x2048x64 (![0, 1, 2] : Fin 3 → Fin S1024x2048x64.rank)
  reducesTo_S1024x2048x64_S1024x2048_d2 : S1024x2048x64.ReducesTo [2] S1024x2048
  h_S_ : 0 < S_.numel
  dot_S1024x2048x12_S12x64_S1024x2048x64_2_0_01_1_n_n_wf : DotDims.WF S1024x2048x12 S12x64 S1024x2048x64 [2] [0] [0, 1] [1] [] []

variable [Facts₀]

def dot_S1024x2048x12_S12x64_S1024x2048x64_2_0_01_1_n_n : DotDims S1024x2048x12 S12x64 S1024x2048x64 where
  lhsContracting := [2]
  rhsContracting := [0]
  lhsNonContracting := [0, 1]
  rhsNonContracting := [1]
  lhsBatch := []
  rhsBatch := []
  wf := dot_S1024x2048x12_S12x64_S1024x2048x64_2_0_01_1_n_n_wf

class Facts : Prop extends Facts₀ where

variable [Facts]
-- ==== Proof.LutCell.lean ====
/-
  The soft six-input lookup cell, as one function on the extended reals, and how the layout operations around it read
  at an index.

  For a six-vector `x` the twelve numbers `pq = (1 - x₀, …, 1 - x₅, x₀, …, x₅)` are clamped below at zero, moved up by
  the small constant and taken to their logarithms (`logPq`). A 12 × 64 table `T` turns them into 64 logits
  `∑ₖ logPq k · T k t`; each logit is exponentiated, weighted by the logistic function of a 64-vector `l`, and the 64
  products are added (`cell`). The output array holds, at `(b, n)`, the cell of row `(b, n, ·)` of the input with row
  `n` of the weights (`lutOut`).

  The reading lemmas are stated for any leading extents: a two-piece concatenation along the last axis of extents
  6 + 6, a sum over the last of three axes (as a lane reduction and as the host's reduction with an initial value), the
  casts between `[A, B, C]` and `[A · B, C]`, and a `[B, C]` vector cast to `[1, B, C]` and repeated along a new
  leading axis.
-/
import Idealize.ShloMosaic.PureOps.Ideal.Laws
import Idealize.ShloMosaic.Lib.ValueIdx
import Idealize.ShloMosaic.Lib.Pipeline.Value

noncomputable section

namespace Cert.Lut

open Idealize.ShloMosaic Idealize.ShloMosaic.ValueIdx

/-! ## The cell -/

/-- The three scalar words both programs spell: one, zero and the small constant added before the logarithm. -/
abbrev oneE : EReal := Ideal.ofBits .f32 0x3F800000#32
abbrev zeroE : EReal := Ideal.ofBits .f32 0x00000000#32
abbrev epsE : EReal := Ideal.ofBits .f32 0x33D6BF95#32

/-- Entry `k` of `(1 - x, x)`: the complement of `x k` for `k < 6`, and `x (k - 6)` from there on. -/
def pq (x6 : Fin 6 → EReal) (k : Fin 12) : EReal :=
  if h : k.val < 6 then oneE - x6 ⟨k.val, h⟩ else x6 ⟨k.val - 6, by omega⟩

/-- Its logarithm after the clamp at zero and the shift by the small constant. -/
def logPq (x6 : Fin 6 → EReal) (k : Fin 12) : EReal := Ideal.log (max (pq x6 k) zeroE + epsE)

/-- One output entry: the 64 exponentiated logits weighted by the logistic of `l`, added up. -/
def cell (x6 : Fin 6 → EReal) (l : Fin 64 → EReal) (T : Fin 12 → Fin 64 → EReal) : EReal :=
  ∑ t : Fin 64, Ideal.exp (∑ k : Fin 12, logPq x6 k * T k t) * Ideal.logistic (l t)

/-- The whole output: at `(b, n)` the cell of input row `(b, n, ·)` and weight row `n`. -/
def lutOut (x : (⟨3, ![1024, 2048, 6]⟩ : Shape).Idx → EReal) (w : (⟨2, ![2048, 64]⟩ : Shape).Idx → EReal)
    (T : (⟨2, ![12, 64]⟩ : Shape).Idx → EReal) : (⟨2, ![1024, 2048]⟩ : Shape).Idx → EReal :=
  fun j => cell (fun k => x (ix3 (j 0) (j 1) k)) (fun t => w (ix2 (j 1) t)) (fun k t => T (ix2 k t))

theorem lutOut_apply (x : (⟨3, ![1024, 2048, 6]⟩ : Shape).Idx → EReal) (w : (⟨2, ![2048, 64]⟩ : Shape).Idx → EReal)
    (T : (⟨2, ![12, 64]⟩ : Shape).Idx → EReal) (b : Fin 1024) (n : Fin 2048) :
    lutOut x w T (ix2 b n) = cell (fun k => x (ix3 b n k)) (fun t => w (ix2 n t)) (fun k t => T (ix2 k t)) := rfl

/-! ## A concatenation of two six-wide pieces along the last axis -/

section Layout

variable {A B C : Nat} {α : Type}

/-- The concatenation of `u` and `v` along the last axis reads `u` on the first six positions and `v`, six places
    back, on the last six. -/
theorem concat6_apply (u v : (⟨3, ![A, B, 6]⟩ : Shape).Idx → α)
    (h : Shape.Concatenates [⟨3, ![A, B, 6]⟩, ⟨3, ![A, B, 6]⟩] ⟨3, ![A, B, 12]⟩ 2) (a : Fin A) (b : Fin B) (k : Fin 12) :
    concatenate ⟨3, ![A, B, 12]⟩ 2 [⟨⟨3, ![A, B, 6]⟩, u⟩, ⟨⟨3, ![A, B, 6]⟩, v⟩] h (ix3 a b k)
      = if hk : k.val < 6 then u (ix3 a b ⟨k.val, hk⟩) else v (ix3 a b ⟨k.val - 6, by omega⟩) := by
  split
  · next hk =>
    refine concatenate_pair_apply_left 2 u v h (ix3 a b k) rfl (ix3 a b ⟨k.val, hk⟩) fun c => ?_
    match c with
    | ⟨0, _⟩ => rfl
    | ⟨1, _⟩ => rfl
    | ⟨2, _⟩ => rfl
  · next hk =>
    refine concatenate_pair_apply_right 2 u v h (ix3 a b k) rfl rfl (ix3 a b ⟨k.val - 6, by omega⟩) (fun c hc => ?_) ?_
    · match c with
      | ⟨0, _⟩ => rfl
      | ⟨1, _⟩ => rfl
      | ⟨2, _⟩ => exact absurd rfl hc
    · show k.val - 6 + 6 = k.val
      omega

/-! ## Sums over the last of three axes -/

/-- Position `(a, b)` with the summed coordinate `t` put back is `(a, b, t)`. -/
theorem lift_last (h : (⟨3, ![A, B, C]⟩ : Shape).Reduces [2] ⟨2, ![A, B]⟩) (a : Fin A) (b : Fin B) (t : Fin C) :
    h.lift (ix2 a b) t = ix3 a b t :=
  funext fun d => Fin.ext (by match d with | ⟨0, _⟩ => rfl | ⟨1, _⟩ => rfl | ⟨2, _⟩ => rfl)

/-- A lane reduction by addition over the last axis, at `(a, b)`. -/
theorem lastSum_apply {φ : FTy} (src : FVec Ideal ⟨3, ![A, B, C]⟩ φ) (acc : BitVec φ.bits)
    (h : (⟨3, ![A, B, C]⟩ : Shape).Reduces [2] ⟨2, ![A, B]⟩) (hφ : FKind.Formats φ) (hacc : acc = FKind.add.neutral φ hφ)
    (a : Fin A) (b : Fin B) :
    multiReduction .add [2] ⟨2, ![A, B]⟩ src acc h hφ hacc (ix2 a b) = ∑ t : Fin C, src (ix3 a b t) := by
  rw [Ideal.multiReduction_add_single]
  exact Finset.sum_congr rfl fun t _ => congrArg src (lift_last h a b t)

/-- The host's reduction by addition over the last axis from an initial value, at `(a, b)`. -/
theorem hostLastSum_apply (h' : (⟨3, ![A, B, C]⟩ : Shape).ReducesTo [2] ⟨2, ![A, B]⟩)
    (h : (⟨3, ![A, B, C]⟩ : Shape).Reduces [2] ⟨2, ![A, B]⟩) (x : (⟨3, ![A, B, C]⟩ : Shape).Idx → EReal) (init : EReal)
    (a : Fin A) (b : Fin B) :
    Ideal.hostReduceAdd h' x init (ix2 a b) = init + ∑ t : Fin C, x (ix3 a b t) := by
  rw [Ideal.hostReduceAdd_single h' h]
  exact congrArg (init + ·) (Finset.sum_congr rfl fun t _ => congrArg x (lift_last h a b t))

/-! ## Casts between `[A, B, C]` and `[A · B, C]` -/

/-- Row `a · B + b` of the flattened vector is row `(a, b)` of the three-axis one. -/
theorem flatten_apply {R : Nat} (v : (⟨3, ![A, B, C]⟩ : Shape).Idx → α) (h : (⟨3, ![A, B, C]⟩ : Shape).ShapeCasts ⟨2, ![R, C]⟩)
    (a : Fin A) (b : Fin B) (t : Fin C) (r : Fin R) (hr : r.val = a.val * B + b.val) :
    shapeCast ⟨2, ![R, C]⟩ v h (ix2 r t) = v (ix3 a b t) := by
  refine shapeCast_apply v h (ix2 r t) (ix3 a b t) ?_
  rw [Shape.rowMajor_val_three, Shape.rowMajor_val_two]
  show (a.val * B + b.val) * C + t.val = r.val * C + t.val
  rw [hr]

/-- And back: entry `(a, b, t)` of the unflattened vector is entry `(a · B + b, t)` of the flat one. -/
theorem unflatten_apply {R : Nat} (v : (⟨2, ![R, C]⟩ : Shape).Idx → α) (h : (⟨2, ![R, C]⟩ : Shape).ShapeCasts ⟨3, ![A, B, C]⟩)
    (a : Fin A) (b : Fin B) (t : Fin C) (r : Fin R) (hr : r.val = a.val * B + b.val) :
    shapeCast ⟨3, ![A, B, C]⟩ v h (ix3 a b t) = v (ix2 r t) := by
  refine shapeCast_apply v h (ix3 a b t) (ix2 r t) ?_
  rw [Shape.rowMajor_val_three, Shape.rowMajor_val_two]
  show r.val * C + t.val = (a.val * B + b.val) * C + t.val
  rw [hr]

/-! ## A `[B, C]` vector under a new leading axis -/

/-- Cast to `[1, B, C]`, entry `(u, b, t)` is entry `(b, t)`. -/
theorem addLeading_apply (v : (⟨2, ![B, C]⟩ : Shape).Idx → α) (h : (⟨2, ![B, C]⟩ : Shape).ShapeCasts ⟨3, ![1, B, C]⟩)
    (u : Fin 1) (b : Fin B) (t : Fin C) : shapeCast ⟨3, ![1, B, C]⟩ v h (ix3 u b t) = v (ix2 b t) := by
  refine shapeCast_apply v h (ix3 u b t) (ix2 b t) ?_
  rw [Shape.rowMajor_val_three, Shape.rowMajor_val_two]
  have hu : u.val = 0 := by omega
  show b.val * C + t.val = (u.val * B + b.val) * C + t.val
  rw [hu, Nat.zero_mul, Nat.zero_add]

/-- Repeated `A` times along the leading axis, entry `(a, b, t)` is entry `(0, b, t)`. -/
theorem repeatLeading_apply (v : (⟨3, ![1, B, C]⟩ : Shape).Idx → α) (h : (⟨3, ![1, B, C]⟩ : Shape).Broadcasts ⟨3, ![A, B, C]⟩)
    (hB : B ≠ 1) (hC : C ≠ 1) (a : Fin A) (b : Fin B) (t : Fin C) :
    broadcastTo ⟨3, ![A, B, C]⟩ v h (ix3 a b t) = v (ix3 0 b t) := by
  refine broadcastTo_apply v h (ix3 a b t) (ix3 0 b t) fun d => ?_
  match d with
  | ⟨0, _⟩ => exact (if_pos rfl).symm
  | ⟨1, _⟩ => exact (if_neg hB).symm
  | ⟨2, _⟩ => exact (if_neg hC).symm

end Layout

end Cert.Lut

end
-- ==== Proof.LibRowwise.lean ====
/-
  Rank-2 vectors read row by row, at the extended reals, for any sizes.

    * a plain matrix product `[M, K] × [K, N]` into a zero accumulator, at `(p, q)`: `∑ₖ a(p, k) · b(k, q)`;
    * a sum over the lanes (axis 1) of an `[A, B]` vector, at row `p`: `∑ₖ v(p, k)`;
    * a maximum over the lanes, at row `p`: the fold of `max` from the starting word's value over `v(p, ·)`;
    * the cast of a length-`A` vector to a column `[A, 1]`, at `(p, u)`: the vector at `p`;
    * the broadcast of a column `[A, 1]` along the lanes to `[A, B]`, at `(p, q)`: the column at `(p, 0)`.

  A dimension-numbers record that contracts the left operand's axis 1 with the right operand's axis 0 and has no batch
  axes IS the plain record (`eq_plain`), so the product lemma serves every such record a program prints.
-/
import Idealize.ShloMosaic.PureOps.Ideal.Laws
import Idealize.ShloMosaic.Lib.ValueIdx
import Idealize.ShloMosaic.Lib.Pipeline.Value

noncomputable section

namespace Cert.Lib.Rowwise

open Idealize.ShloMosaic Idealize.ShloMosaic.ValueIdx

/-! ## The plain matrix product -/

section Dot

variable {M K N : Nat}

/-- A record over `[M, K]`, `[K, N]`, `[M, N]` whose six lists are the plain product's is the plain record. -/
theorem eq_plain (D : DotDims ⟨2, ![M, K]⟩ ⟨2, ![K, N]⟩ ⟨2, ![M, N]⟩) (h1 : D.lhsContracting = [1]) (h2 : D.rhsContracting = [0])
    (h3 : D.lhsNonContracting = [0]) (h4 : D.rhsNonContracting = [1]) (h5 : D.lhsBatch = []) (h6 : D.rhsBatch = []) :
    D = DotDims.plain M K N := by
  cases D
  simp only at h1 h2 h3 h4 h5 h6
  subst h1 h2 h3 h4 h5 h6
  rfl

theorem plain_lhs0 (j : (⟨2, ![M, N]⟩ : Shape).Idx) (q : (DotDims.plain M K N).contr.Idx) :
    ((DotDims.plain M K N).lhsIdx j q 0).val = (j 0).val := rfl
theorem plain_lhs1 (j : (⟨2, ![M, N]⟩ : Shape).Idx) (q : (DotDims.plain M K N).contr.Idx) :
    ((DotDims.plain M K N).lhsIdx j q 1).val = (q ⟨0, Nat.one_pos⟩).val := rfl
theorem plain_rhs0 (j : (⟨2, ![M, N]⟩ : Shape).Idx) (q : (DotDims.plain M K N).contr.Idx) :
    ((DotDims.plain M K N).rhsIdx j q 0).val = (q ⟨0, Nat.one_pos⟩).val := rfl
theorem plain_rhs1 (j : (⟨2, ![M, N]⟩ : Shape).Idx) (q : (DotDims.plain M K N).contr.Idx) :
    ((DotDims.plain M K N).rhsIdx j q 1).val = (j 1).val := rfl

/-- The plain product into the zero word, read at `(p, q)`: the sum over the contracted coordinate. -/
theorem plain_matmul_zero_apply {φ₁ φ₂ : FTy} (prec : Option ContractPrecision) (a : FVec Ideal ⟨2, ![M, K]⟩ φ₁)
    (b : FVec Ideal ⟨2, ![K, N]⟩ φ₂) (p : Fin M) (q : Fin N) :
    FloatOps.matmul (DotDims.plain M K N) prec a b (constant ⟨2, ![M, N]⟩ .f32 0x00000000#32) (ix2 p q)
      = ∑ k : Fin K, a (ix2 p k) * b (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

end Dot

/-! ## Lane reductions -/

section Lanes

variable {A B : Nat} {φ : FTy}

/-- Row `p` with lane `k` put back is `(p, k)`. -/
theorem lift_row (h : (⟨2, ![A, B]⟩ : Shape).Reduces [1] ⟨1, ![A]⟩) (p : Fin A) (k : Fin B) :
    h.lift (ix1 p) k = ix2 p k :=
  funext fun a => Fin.ext (by match a with | ⟨0, _⟩ => rfl | ⟨1, _⟩ => rfl)

/-- A lane sum at row `p`. -/
theorem laneSum_apply (src : FVec Ideal ⟨2, ![A, B]⟩ φ) (acc : BitVec φ.bits) (h : (⟨2, ![A, B]⟩ : Shape).Reduces [1] ⟨1, ![A]⟩)
    (hφ : FKind.Formats φ) (hacc : acc = FKind.add.neutral φ hφ) (p : Fin A) :
    multiReduction .add [1] ⟨1, ![A]⟩ src acc h hφ hacc (ix1 p) = ∑ k : Fin B, src (ix2 p k) := by
  rw [Ideal.multiReduction_add_single]
  exact Finset.sum_congr rfl fun k _ => congrArg src (lift_row h p k)

/-- A lane maximum at row `p`: the fold of `max` from the starting word's value. -/
theorem laneMax_apply (src : FVec Ideal ⟨2, ![A, B]⟩ φ) (acc : BitVec φ.bits) (h : (⟨2, ![A, B]⟩ : Shape).Reduces [1] ⟨1, ![A]⟩)
    (hφ : FKind.Formats φ) (hacc : acc = FKind.maximumf.neutral φ hφ) (p : Fin A) :
    multiReduction .maximumf [1] ⟨1, ![A]⟩ src acc h hφ hacc (ix1 p)
      = (Finset.univ : Finset (Fin B)).fold max (Ideal.ofBits φ acc) (fun k => src (ix2 p k)) := by
  rw [Ideal.multiReduction_maximumf_single]
  have e : (src ∘ h.lift (ix1 p)) = fun k => src (ix2 p k) := funext fun k => congrArg src (lift_row h p k)
  rw [e]
  rfl

end Lanes

/-! ## Columns -/

section Columns

variable {A B : Nat} {α : Type}

/-- A length-`A` vector cast to a column reads, at `(p, u)`, the vector at `p`. -/
theorem column_apply (v : (⟨1, ![A]⟩ : Shape).Idx → α) (h : (⟨1, ![A]⟩ : Shape).ShapeCasts ⟨2, ![A, 1]⟩) (p : Fin A) (u : Fin 1) :
    shapeCast ⟨2, ![A, 1]⟩ v h (ix2 p u) = v (ix1 p) := by
  refine shapeCast_apply v h (ix2 p u) (ix1 p) ?_
  rw [Shape.rowMajor_val_one, Shape.rowMajor_val_two]
  have hu : u.val = 0 := by omega
  show p.val = p.val * 1 + u.val
  omega

/-- A column broadcast along the lanes reads, at `(p, q)`, the column at `(p, 0)`. -/
theorem columnBroadcast_apply (v : (⟨2, ![A, 1]⟩ : Shape).Idx → α) (h : (⟨2, ![A, 1]⟩ : Shape).Broadcasts ⟨2, ![A, B]⟩)
    (hA : A ≠ 1) (p : Fin A) (q : Fin B) : broadcastTo ⟨2, ![A, B]⟩ v h (ix2 p q) = v (ix2 p 0) := by
  refine broadcastTo_apply v h (ix2 p q) (ix2 p 0) fun a => ?_
  match a with
  | ⟨0, _⟩ => exact (if_neg hA).symm
  | ⟨1, _⟩ => exact (if_pos rfl).symm

end Columns

end Cert.Lib.Rowwise

end
-- ==== Proof.KernelCell.lean ====
/-
  What the kernel body computes for one block, entry by entry.

  The body loads a 128 × 128 × 6 block `x` of the input, the whole 12 × 64 table `T` and a 128 × 64 block `w` of the
  weights. It forms `(1 - x, x)` along the last axis, clamps at zero, adds the small constant and takes logarithms; flattens
  the two leading axes into 16384 rows, multiplies by the table into a zero accumulator, and unflattens; exponentiates;
  multiplies by the logistic of `w` repeated along a new leading axis; and sums the last axis. Row `p · 128 + q` of the
  flat product is the contraction of row `(p, q, ·)` of the logarithms with the table, so entry `(p, q)` of the result is
  the lookup cell of `x (p, q, ·)` and `w (q, ·)`.
-/
import proofs.«165998_j63780264346273_1_alg».proof.Proof.Gen.KernelIdeal.Skeleton
import proofs.«165998_j63780264346273_1_alg».proof.Proof.LutCell
import proofs.«165998_j63780264346273_1_alg».proof.Proof.LibRowwise

noncomputable section

namespace Cert.KernelIdeal.BlockValue

open Cert.KernelIdeal Cert.KernelIdeal.Gen Idealize.ShloMosaic Idealize.ShloMosaic.ValueIdx Cert.Lut

/-- The printed contraction record is the plain `[16384, 12] × [12, 64]` one. -/
theorem dims_plain : dot_S16384x12_S12x64_S16384x64_1_0_0_1_n_n = DotDims.plain 16384 12 64 :=
  Cert.Lib.Rowwise.eq_plain _ rfl rfl rfl rfl rfl rfl

/-- The block's logarithms, as the body spells them. -/
abbrev blockLogs (x : FVec Ideal S128x128x6 .f32) : FVec Ideal S128x128x12 .f32 :=
  log (addf (maximumf (concatenate S128x128x12 2 [⟨S128x128x6, subf (broadcast S128x128x6 (Scalar.ofBits (F := Ideal) .f32 0x3F800000#32)) x⟩, ⟨S128x128x6, x⟩] concatenates_S128x128x6_S128x128x6_S128x128x12_d2)
    (broadcast S128x128x12 (Scalar.ofBits (F := Ideal) .f32 0x00000000#32))) (broadcast S128x128x12 (Scalar.ofBits (F := Ideal) .f32 0x33D6BF95#32)))

/-- A logarithm at `(p, q, k)` is `logPq` of block row `(p, q, ·)` at `k`. -/
theorem blockLogs_apply (x : FVec Ideal S128x128x6 .f32) (p q : Fin 128) (k : Fin 12) :
    blockLogs x (ix3 p q k) = logPq (fun j => x (ix3 p q j)) k := by
  show Ideal.log (max (concatenate _ _ _ _ (ix3 p q k)) zeroE + epsE) = _
  rw [concat6_apply]
  unfold logPq pq
  by_cases hk : k.val < 6
  · rw [dif_pos hk, dif_pos hk] <;> rfl
  · rw [dif_neg hk, dif_neg hk] <;> rfl

/-- The unflattened product at `(p, q, t)`: the twelve logarithms of row `(p, q, ·)` against column `t` of the table. -/
theorem logits_apply (x : FVec Ideal S128x128x6 .f32) (T : FVec Ideal S12x64 .f32) (p q : Fin 128) (t : Fin 64) :
    shapeCast S128x128x64 (matmul dot_S16384x12_S12x64_S16384x64_1_0_0_1_n_n (some .fp32) (shapeCast S16384x12 (blockLogs x) shapeCasts_S128x128x12_S16384x12) T
        (constant S16384x64 .f32 0x00000000#32)) shapeCasts_S16384x64_S128x128x64 (ix3 p q t)
      = ∑ k : Fin 12, logPq (fun j => x (ix3 p q j)) k * T (ix2 k t) := by
  have hr : p.val * 128 + q.val < 16384 := by omega
  refine (unflatten_apply _ _ p q t ⟨p.val * 128 + q.val, hr⟩ rfl).trans ?_
  rw [dims_plain]
  refine (Cert.Lib.Rowwise.plain_matmul_zero_apply _ _ _ ⟨p.val * 128 + q.val, hr⟩ t).trans ?_
  refine Finset.sum_congr rfl fun k _ => congrArg (· * T (ix2 k t)) ?_
  exact (flatten_apply _ _ p q k ⟨p.val * 128 + q.val, hr⟩ rfl).trans (blockLogs_apply x p q k)

/-- The repeated gate at `(p, q, t)`: the logistic of the weight block at `(q, t)`. -/
theorem gate_apply (w : FVec Ideal S128x64 .f32) (p q : Fin 128) (t : Fin 64) :
    broadcastTo S128x128x64 (shapeCast S1x128x64 (shapeCast S1x128x64 (logistic w) shapeCasts_S128x64_S1x128x64) shapeCasts_S1x128x64_S1x128x64)
        broadcasts_S1x128x64_S128x128x64 (ix3 p q t)
      = Ideal.logistic (w (ix2 q t)) := by
  refine (repeatLeading_apply _ _ (by decide) (by decide) p q t).trans ?_
  rw [shapeCast_self]
  exact addLeading_apply _ _ 0 q t

/-- THE BLOCK'S RESULT at `(p, q)` is the lookup cell of input row `(p, q, ·)`, weight row `q` and the table. -/
theorem pay_apply (x : FVec Ideal S128x128x6 .f32) (T : FVec Ideal S12x64 .f32) (w : FVec Ideal S128x64 .f32) (p q : Fin 128) :
    k0_pay1 (F := Ideal) x T w (ix2 p q) = cell (fun k => x (ix3 p q k)) (fun t => w (ix2 q t)) (fun k t => T (ix2 k t)) := by
  unfold k0_pay1
  dsimp only
  refine (lastSum_apply _ _ _ _ _ p q).trans ?_
  unfold cell
  refine Finset.sum_congr rfl fun t _ => ?_
  exact congrArg₂ (fun a b : EReal => Ideal.exp a * b) (logits_apply x T p q t) (gate_apply w p q t)

end Cert.KernelIdeal.BlockValue

end
-- ==== Proof.KernelValue.lean ====
/-
  The kernel's output array after the run is the lookup function of the two argument arrays.

  Grid point `t` has block indices `(i₀, i₁)` with `i₀ < 8` and `i₁ < 16`: it reads rows `128 i₀ …` and columns
  `128 i₁ …` of the input (all six of the last axis), rows `128 i₁ …` of the weights, the whole table, and writes the
  128 × 128 block `(i₀, i₁)` of the output. A block's coordinate is always index × size + the coordinate inside the block,
  so entry `(p, q)` of what the point writes is the lookup cell of input row `(128 i₀ + p, 128 i₁ + q, ·)` and weight row
  `128 i₁ + q`: block `t` of the lookup function. Every output index `(b, n)` lies in the block of the point with indices
  `(b / 128, n / 128)`, so the blocks cover the array, and the array is the lookup function. The table the region finds is
  the constant the host operation before it wrote.
-/
import proofs.«165998_j63780264346273_1_alg».proof.Proof.Gen.KernelIdeal.Value
import proofs.«165998_j63780264346273_1_alg».proof.Proof.KernelCell
import Idealize.ShloMosaic.Lib.StableHlo.Run

set_option maxRecDepth 16384

noncomputable section

namespace Cert.KernelIdeal.ArrayValue

open Cert.KernelIdeal Cert.KernelIdeal.Gen Idealize.ShloMosaic Idealize.ShloMosaic.TcCoe Idealize.SL.Sem
open Idealize.ShloMosaic.ValueIdx Cert.Lut Cert.KernelIdeal.BlockValue
open Idealize.ShloMosaic.Pipeline (Dat)

variable (m : (ℓ : Loc nD τ sig) → Buf (Elt Ideal) ℓ) (ρ : Dev nD → PrngReg)

theorem zero2 : (![0, 0] : Fin 2 → Nat) = fun _ => 0 := funext fun a => by fin_cases a <;> rfl
theorem zero3 : (![0, 0, 0] : Fin 3 → Nat) = fun _ => 0 := funext fun a => by fin_cases a <;> rfl

/-! ## The table the region finds -/

/-- The selection table as the program spells it: the literal's 768 words, row-major. -/
abbrev table : FVec Ideal S12x64 .f32 := fun i => FloatOps.ofBits .f32 (lit0 (S12x64.rowMajor i))

/-- The one host operation before the region writes the table's buffer. -/
theorem V_table (c : Dev nD) : (V m c main_cst : S12x64.Idx → EReal) = table := by
  dsimp only [Gen.V, Gen.hostOps0]
  after_results
  rfl

/-! ## One point's result, over blocks and arrays as variables -/

/-- If block `x` at row `(j₀, j₁, ·)` is array `X` at row `(i₀, i₁, ·)`, block `w` at row `j₁` is `W` at row `i₁`, and the
    table block is `T`, the body's result at `j` is the lookup function of `X`, `W`, `T` at `i`. -/
theorem point_eq (X : S1024x2048x6.Idx → EReal) (W : S2048x64.Idx → EReal) (T : S12x64.Idx → EReal)
    (x : FVec Ideal S128x128x6 .f32) (tb : FVec Ideal S12x64 .f32) (w : FVec Ideal S128x64 .f32)
    (j : S128x128.Idx) (i : S1024x2048.Idx)
    (hx : ∀ k : Fin 6, x (ix3 (j 0) (j 1) k) = X (ix3 (i 0) (i 1) k))
    (hw : ∀ t : Fin 64, w (ix2 (j 1) t) = W (ix2 (i 1) t))
    (ht : ∀ (k : Fin 12) (t : Fin 64), tb (ix2 k t) = T (ix2 k t)) :
    k0_pay1 (F := Ideal) x tb w j = lutOut X W T i := by
  obtain ⟨p, q, rfl⟩ : ∃ (p q : Fin 128), j = ix2 p q := ⟨j 0, j 1, eq_ix2 j⟩
  obtain ⟨b, n, rfl⟩ : ∃ (b : Fin 1024) (n : Fin 2048), i = ix2 b n := ⟨i 0, i 1, eq_ix2 i⟩
  rw [pay_apply, lutOut_apply]
  have e1 : (fun k => x (ix3 p q k)) = fun k => X (ix3 b n k) := funext hx
  have e2 : (fun t => w (ix2 q t)) = fun t => W (ix2 n t) := funext hw
  have e3 : (fun k t => tb (ix2 k t)) = fun k t => T (ix2 k t) := funext fun k => funext fun t => ht k t
  rw [e1, e2, e3]

/-! ## The index maps over the grid -/

/-- The input moves with the output on both block axes and stays at 0 on the last; the weights move with the output's
    second axis; the table stays put; the output's block indices stay in their ranges. -/
theorem idx_facts : ∀ t : Fin cfg0.N,
    win0_0.index t (0 : Fin 3) = win0_3.index t (0 : Fin 2) ∧ win0_0.index t (1 : Fin 3) = win0_3.index t (1 : Fin 2)
    ∧ win0_0.index t (2 : Fin 3) = 0
    ∧ win0_1.index t (0 : Fin 2) = win0_3.index t (1 : Fin 2) ∧ win0_1.index t (1 : Fin 2) = 0
    ∧ win0_2.index t (0 : Fin 2) = 0 ∧ win0_2.index t (1 : Fin 2) = 0
    ∧ win0_3.index t (0 : Fin 2) ≤ 7 ∧ win0_3.index t (1 : Fin 2) ≤ 15 :=
  (by decide +kernel : ∀ t : Fin grid0.N, _)

/-- Every pair of block indices is some point's. -/
theorem idx_onto : ∀ (q0 : Fin 8) (q1 : Fin 16), ∃ t : Fin cfg0.N, win0_3.index t = ![q0.val, q1.val] :=
  (by decide +kernel : ∀ (q0 : Fin 8) (q1 : Fin 16), ∃ t : Fin grid0.N, win0_3.index t = ![q0.val, q1.val])

/-! ## What a point writes back -/

/-- WHAT POINT `t` WRITES BACK is block `t` of the lookup function of the arrays as the region finds them. -/
theorem flushed_eq (c : Dev nD) (t : Fin cfg0.N) :
    (dats m 0 c).flushed 3 t
      = ((cfg0.win 3).blk t).view.read (Elt Ideal) (lutOut (V m c main_arg0) (V m c main_arg1) (V m c main_cst)) := by
  rw [Cert.KernelIdeal.Value.flushed3]
  unfold out0_3
  rw [View.canon_unit_zero zero2]
  simp only [View.ld_unit_zero (S := S128x128x6) zero3, View.ld_unit_zero (S := S12x64) zero2, View.ld_unit_zero (S := S128x64) zero2]
  obtain ⟨e00, e01, e02, e10, e11, e20, e21, b0, b1⟩ := idx_facts t
  funext j
  have hj0 : (j 0).val < 128 := (j 0).isLt
  have hj1 : (j 1).val < 128 := (j 1).isLt
  show k0_pay1 (iblk m c 0 t) (iblk m c 2 t) (iblk m c 1 t) _ = lutOut (V m c main_arg0) (V m c main_arg1) (V m c main_cst) (((cfg0.win 3).blk t).view.emb j)
  refine point_eq (V m c main_arg0) (V m c main_arg1) (V m c main_cst) (iblk m c 0 t) (iblk m c 2 t) (iblk m c 1 t) _ _
    (fun k => ?_) (fun s => ?_) (fun k s => ?_)
  · show V m c main_arg0 (((cfg0.win 0).blk t).view.emb (ix3 ⟨(j 0).val, hj0⟩ ⟨(j 1).val, hj1⟩ k)) = _
    refine congrArg (V m c main_arg0) (funext fun a => Fin.ext ?_)
    match a with
    | ⟨0, _⟩ => show win0_0.index t (0 : Fin 3) * 128 + 1 * (j 0).val = win0_3.index t (0 : Fin 2) * 128 + 1 * (j 0).val; omega
    | ⟨1, _⟩ => show win0_0.index t (1 : Fin 3) * 128 + 1 * (j 1).val = win0_3.index t (1 : Fin 2) * 128 + 1 * (j 1).val; omega
    | ⟨2, _⟩ => show win0_0.index t (2 : Fin 3) * 6 + 1 * k.val = k.val; omega
  · show V m c main_arg1 (((cfg0.win 1).blk t).view.emb (ix2 ⟨(j 1).val, hj1⟩ s)) = _
    refine congrArg (V m c main_arg1) (funext fun a => Fin.ext ?_)
    match a with
    | ⟨0, _⟩ => show win0_1.index t (0 : Fin 2) * 128 + 1 * (j 1).val = win0_3.index t (1 : Fin 2) * 128 + 1 * (j 1).val; omega
    | ⟨1, _⟩ => show win0_1.index t (1 : Fin 2) * 64 + 1 * s.val = s.val; omega
  · show V m c main_cst (((cfg0.win 2).blk t).view.emb (ix2 k s)) = _
    refine congrArg (V m c main_cst) (funext fun a => Fin.ext ?_)
    match a with
    | ⟨0, _⟩ => show win0_2.index t (0 : Fin 2) * 12 + 1 * k.val = k.val; omega
    | ⟨1, _⟩ => show win0_2.index t (1 : Fin 2) * 64 + 1 * s.val = s.val; omega

/-! ## The blocks cover the array -/

/-- An index is in point `t`'s block iff each coordinate is in the block's range on its axis. -/
theorem mem_blk (t : Fin cfg0.N) (i : S1024x2048.Idx) :
    i ∈ ((cfg0.win 3).blk t).view.set ↔ ∀ a : Fin 2, win0_3.index t a * S128x128.size a ≤ (i a).val ∧ (i a).val < win0_3.index t a * S128x128.size a + S128x128.size a := by
  show i ∈ ((View.whole main_v0).slice (win0_3.rect t)).set ↔ _
  rw [View.set_slice_whole, Rect.mem_set_unit]
  exact Iff.rfl

/-- Index `(b, n)` is in the block of the point with block indices `(b / 128, n / 128)`. -/
theorem cover (i : S1024x2048.Idx) : ∃ t : Fin cfg0.N, (cfg0.win 3).flush t = true ∧ i ∈ ((cfg0.win 3).blk t).view.set := by
  have hi0 : (i 0).val < 1024 := (i 0).isLt
  have hi1 : (i 1).val < 2048 := (i 1).isLt
  obtain ⟨t, ht⟩ := idx_onto ⟨(i 0).val / 128, by omega⟩ ⟨(i 1).val / 128, by omega⟩
  have q0 : win0_3.index t (0 : Fin 2) = (i 0).val / 128 := congrFun ht 0
  have q1 : win0_3.index t (1 : Fin 2) = (i 1).val / 128 := congrFun ht 1
  refine ⟨t, flush0_3 t, ?_⟩
  rw [mem_blk]
  intro a
  match a with
  | ⟨0, _⟩ => show win0_3.index t (0 : Fin 2) * 128 ≤ (i 0).val ∧ (i 0).val < win0_3.index t (0 : Fin 2) * 128 + 128; omega
  | ⟨1, _⟩ => show win0_3.index t (1 : Fin 2) * 128 ≤ (i 1).val ∧ (i 1).val < win0_3.index t (1 : Fin 2) * 128 + 128; omega

/-! ## The array, and the run read -/

/-- THE OUTPUT ARRAY after the run is the lookup function of the argument arrays as launched and the table. -/
theorem final (c : Dev nD) :
    (dats m 0 c).arrAt 3 cfg0.N = lutOut (m ((c : Thread nD τ).loc main_arg0)) (m ((c : Thread nD τ).loc main_arg1)) table := by
  rw [← V_main_arg0 m c, ← V_main_arg1 m c, ← V_table m c]
  exact (dats m 0 c).arrAt_eq_of_cover 3 _ (fun t _ => flushed_eq m c t) cover

/-- Every weakly fair execution of the kernel's program terminates with the result at the lookup function of the
    arguments, the arguments unchanged. -/
theorem run : θ_run defs (onTc (τ := τ) (main (F := Ideal))) ⟨m, fun _ => 0, ρ⟩ fun r => ∀ c : Dev nD,
      r.2.mem ((c : Thread nD τ).loc main_v0) = lutOut (m ((c : Thread nD τ).loc main_arg0)) (m ((c : Thread nD τ).loc main_arg1)) table
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Cert.KernelIdeal.Value.run_blocks m ρ)

end Cert.KernelIdeal.ArrayValue

end
-- ==== Proof.RefRun.lean ====
/-
  The reference program's run, read back as a value.

  Its entry function is a straight line of host operations: the 12 × 64 selection table, `1 - x`, the concatenation
  `(1 - x, x)`, the clamp at zero (a call, whose three operations are listed where the call stands), the small constant
  added, the logarithm, the contraction with the table, the exponential; beside it `1 / (1 + exp (-w))` of the weights,
  repeated along a new leading axis; the product of the two and its sum over the last axis. Every weakly fair execution
  runs them in order and ends with the result buffer at the composed term `out` of the two argument arrays, the arguments
  unchanged.
-/
import proofs.«165998_j63780264346273_1_alg».proof.Proof.Gen.ReferenceIdeal
import Idealize.ShloMosaic.Lib.StableHlo.Run

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-- The entry function's operations, in order; the clamp's three stand inline over the call's own buffers. -/
abbrev ops : List (HloOp τ sig (Elt F)) :=
  [
    nullary main_cst (fun i => FloatOps.ofBits .f32 (lit0 (S12x64.rowMajor i))),
    nullary main_cst_0 (constant S_ .f32 0x3F800000#32),
    unary main_cst_0 main_v0 (broadcastInDim S1024x2048x6 ![] bcast_S_S1024x2048x6 : (⟨S_, .f32⟩ : BufTy).Contents (Elt F) → (⟨S1024x2048x6, .f32⟩ : BufTy).Contents (Elt F)),
    binary main_v0 main_arg0 main_v1 (subf : (⟨S1024x2048x6, .f32⟩ : BufTy).Contents (Elt F) → (⟨S1024x2048x6, .f32⟩ : BufTy).Contents (Elt F) → (⟨S1024x2048x6, .f32⟩ : BufTy).Contents (Elt F)),
    binary main_v1 main_arg0 main_v2 ((fun a b => concatenate S1024x2048x12 2 [⟨S1024x2048x6, a⟩, ⟨S1024x2048x6, b⟩] concatenates_S1024x2048x6_S1024x2048x6_S1024x2048x12_d2) : (⟨S1024x2048x6, .f32⟩ : BufTy).Contents (Elt F) → (⟨S1024x2048x6, .f32⟩ : BufTy).Contents (Elt F) → (⟨S1024x2048x12, .f32⟩ : BufTy).Contents (Elt F)),
    TRef.nullary main_call0.cst (constant S_ .f32 0x00000000#32),
    TRef.unary main_call0.cst main_call0.v0 (broadcastInDim S1024x2048x12 ![] bcast_S_S1024x2048x12),
    TRef.binary (.of main_v2) main_call0.v0 main_call0.v1 maximumf,
    nullary main_cst_1 (constant S_ .f32 0x33D6BF95#32),
    unary main_cst_1 main_v4 (broadcastInDim S1024x2048x12 ![] bcast_S_S1024x2048x12 : (⟨S_, .f32⟩ : BufTy).Contents (Elt F) → (⟨S1024x2048x12, .f32⟩ : BufTy).Contents (Elt F)),
    binary main_v3 main_v4 main_v5 (addf : (⟨S1024x2048x12, .f32⟩ : BufTy).Contents (Elt F) → (⟨S1024x2048x12, .f32⟩ : BufTy).Contents (Elt F) → (⟨S1024x2048x12, .f32⟩ : BufTy).Contents (Elt F)),
    unary main_v5 main_v6 (Host.log : (⟨S1024x2048x12, .f32⟩ : BufTy).Contents (Elt F) → (⟨S1024x2048x12, .f32⟩ : BufTy).Contents (Elt F)),
    binary main_v6 main_cst main_v7 ((fun l r => Host.dotGeneral dot_S1024x2048x12_S12x64_S1024x2048x64_2_0_01_1_n_n none l r) : (⟨S1024x2048x12, .f32⟩ : BufTy).Contents (Elt F) → (⟨S12x64, .f32⟩ : BufTy).Contents (Elt F) → (⟨S1024x2048x64, .f32⟩ : BufTy).Contents (Elt F)),
    unary main_v7 main_v8 (Host.exp : (⟨S1024x2048x64, .f32⟩ : BufTy).Contents (Elt F) → (⟨S1024x2048x64, .f32⟩ : BufTy).Contents (Elt F)),
    unary main_arg1 main_v9 (Host.negf : (⟨S2048x64, .f32⟩ : BufTy).Contents (Elt F) → (⟨S2048x64, .f32⟩ : BufTy).Contents (Elt F)),
    unary main_v9 main_v10 (Host.exp : (⟨S2048x64, .f32⟩ : BufTy).Contents (Elt F) → (⟨S2048x64, .f32⟩ : BufTy).Contents (Elt F)),
    nullary main_cst_2 (constant S_ .f32 0x3F800000#32),
    unary main_cst_2 main_v11 (broadcastInDim S2048x64 ![] bcast_S_S2048x64 : (⟨S_, .f32⟩ : BufTy).Contents (Elt F) → (⟨S2048x64, .f32⟩ : BufTy).Contents (Elt F)),
    binary main_v11 main_v10 main_v12 (addf : (⟨S2048x64, .f32⟩ : BufTy).Contents (Elt F) → (⟨S2048x64, .f32⟩ : BufTy).Contents (Elt F) → (⟨S2048x64, .f32⟩ : BufTy).Contents (Elt F)),
    nullary main_cst_3 (constant S_ .f32 0x3F800000#32),
    unary main_cst_3 main_v13 (broadcastInDim S2048x64 ![] bcast_S_S2048x64 : (⟨S_, .f32⟩ : BufTy).Contents (Elt F) → (⟨S2048x64, .f32⟩ : BufTy).Contents (Elt F)),
    binary main_v13 main_v12 main_v14 (Host.divf : (⟨S2048x64, .f32⟩ : BufTy).Contents (Elt F) → (⟨S2048x64, .f32⟩ : BufTy).Contents (Elt F) → (⟨S2048x64, .f32⟩ : BufTy).Contents (Elt F)),
    unary main_v14 main_v15 (broadcastInDim S1x2048x64 ![1, 2] bcast_S2048x64_S1x2048x64_1_2 : (⟨S2048x64, .f32⟩ : BufTy).Contents (Elt F) → (⟨S1x2048x64, .f32⟩ : BufTy).Contents (Elt F)),
    unary main_v15 main_v16 (broadcastInDim S1024x2048x64 ![0, 1, 2] bcast_S1x2048x64_S1024x2048x64_0_1_2 : (⟨S1x2048x64, .f32⟩ : BufTy).Contents (Elt F) → (⟨S1024x2048x64, .f32⟩ : BufTy).Contents (Elt F)),
    binary main_v8 main_v16 main_v17 (mulf : (⟨S1024x2048x64, .f32⟩ : BufTy).Contents (Elt F) → (⟨S1024x2048x64, .f32⟩ : BufTy).Contents (Elt F) → (⟨S1024x2048x64, .f32⟩ : BufTy).Contents (Elt F)),
    nullary main_cst_4 (constant S_ .f32 0x00000000#32),
    binary main_v17 main_cst_4 main_v18 ((fun x v => Host.reduceAdd x v reducesTo_S1024x2048x64_S1024x2048_d2 h_S_) : (⟨S1024x2048x64, .f32⟩ : BufTy).Contents (Elt F) → (⟨S_, .f32⟩ : BufTy).Contents (Elt F) → (⟨S1024x2048, .f32⟩ : BufTy).Contents (Elt F)) ]

set_option maxRecDepth 2048 in
/-- The entry function is that straight line: the called function unfolded at its call, sequencing reassociated. -/
theorem main_eq (c : Dev nD) : main (F := F) c = seq ops := by
  simp only [main, fn_relu.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., unary_bufs_sub .., binary_bufs_sub .., binary_bufs_sub .., nullary_bufs_sub .., unary_bufs_sub .., binary_bufs_sub .., nullary_bufs_sub .., unary_bufs_sub .., binary_bufs_sub .., unary_bufs_sub .., binary_bufs_sub .., unary_bufs_sub .., unary_bufs_sub .., unary_bufs_sub .., nullary_bufs_sub .., unary_bufs_sub .., binary_bufs_sub .., nullary_bufs_sub .., unary_bufs_sub .., binary_bufs_sub .., unary_bufs_sub .., unary_bufs_sub .., binary_bufs_sub .., nullary_bufs_sub .., binary_bufs_sub ..⟩

/-- The selection table as the program spells it: the literal's 768 words, row-major. -/
abbrev table : FVec F S12x64 .f32 := fun i => FloatOps.ofBits .f32 (lit0 (S12x64.rowMajor i))

/-- The twelve clamped, shifted logarithms of `(1 - x, x)`, for the whole array. -/
abbrev logs (x : FVec F S1024x2048x6 .f32) : FVec F S1024x2048x12 .f32 :=
  Host.log (addf (maximumf (concatenate S1024x2048x12 2 [⟨S1024x2048x6, subf (broadcastInDim S1024x2048x6 ![] bcast_S_S1024x2048x6 (constant S_ .f32 0x3F800000#32)) x⟩, ⟨S1024x2048x6, x⟩] concatenates_S1024x2048x6_S1024x2048x6_S1024x2048x12_d2)
    (broadcastInDim S1024x2048x12 ![] bcast_S_S1024x2048x12 (constant S_ .f32 0x00000000#32)))
    (broadcastInDim S1024x2048x12 ![] bcast_S_S1024x2048x12 (constant S_ .f32 0x33D6BF95#32)))

/-- The weights' logistic, spelt `1 / (1 + exp (-w))`, repeated along the new leading axis. -/
abbrev gates (w : FVec F S2048x64 .f32) : FVec F S1024x2048x64 .f32 :=
  broadcastInDim S1024x2048x64 ![0, 1, 2] bcast_S1x2048x64_S1024x2048x64_0_1_2 (broadcastInDim S1x2048x64 ![1, 2] bcast_S2048x64_S1x2048x64_1_2
    (Host.divf (broadcastInDim S2048x64 ![] bcast_S_S2048x64 (constant S_ .f32 0x3F800000#32))
      (addf (broadcastInDim S2048x64 ![] bcast_S_S2048x64 (constant S_ .f32 0x3F800000#32)) (Host.exp (Host.negf w)))))

/-- The result: the sum over the last axis of the exponentiated logits times the gates. -/
abbrev out (x : FVec F S1024x2048x6 .f32) (w : FVec F S2048x64 .f32) : FVec F S1024x2048 .f32 :=
  Host.reduceAdd (mulf (Host.exp (Host.dotGeneral dot_S1024x2048x12_S12x64_S1024x2048x64_2_0_01_1_n_n none (logs x) table)) (gates w))
    (constant S_ .f32 0x00000000#32) reducesTo_S1024x2048x64_S1024x2048_d2 h_S_

/-- On every device, from any memory with zero counters: every weakly fair execution of the entry function terminates
    with the result at `out` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v18) = out (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v18).trans (by after_results; rfl),
      (h c main_arg0).trans (by after_results),
      (h c main_arg1).trans (by after_results)⟩)
    (run_seq scopedRefs_eq scopedSems_eq defs main (fun _ => ops) main_eq (fun _ => ops_sub) m ρ)

end Cert.ReferenceIdeal.HostRun

end
-- ==== Proof.RefValue.lean ====
/-
  The reference's result is the lookup cell, entry by entry.

  At `(b, n)` the host's sum over the last axis is the initial zero plus the 64 products; each product is the exponential
  of the contraction's entry `(b, n, t)` — the sum over the twelve `k` of the logarithm at `(b, n, k)` times the
  table's `(k, t)` — times the gate at `(b, n, t)`, which is the weights' `1 / (1 + exp (-w (n, t)))`: the logistic
  function as the extended reals define it. The logarithm's argument at `(b, n, k)` is the concatenation read on its
  piece. So the entry is `cell` of input row `(b, n, ·)` and weight row `n`.
-/
import proofs.«165998_j63780264346273_1_alg».proof.Proof.RefRun
import proofs.«165998_j63780264346273_1_alg».proof.Proof.LutCell
import Idealize.ShloMosaic.Lib.IdealHost

noncomputable section

namespace Cert.ReferenceIdeal.HostValue

open Cert.ReferenceIdeal Cert.ReferenceIdeal.Gen Cert.ReferenceIdeal.HostRun Idealize.ShloMosaic Idealize.ShloMosaic.ValueIdx Cert.Lut

/-! ## The contraction's operand indices, axis by axis -/

theorem lhs_0 (i : S1024x2048x64.Idx) (q : dot_S1024x2048x12_S12x64_S1024x2048x64_2_0_01_1_n_n.contr.Idx) :
    (dot_S1024x2048x12_S12x64_S1024x2048x64_2_0_01_1_n_n.lhsIdx i q 0).val = (i 0).val := by
  unfold DotDims.lhsIdx
  rw [dif_neg (show ¬(0 : Fin S1024x2048x12.rank) ∈ dot_S1024x2048x12_S12x64_S1024x2048x64_2_0_01_1_n_n.lhsBatch by decide),
    dif_pos (show (0 : Fin S1024x2048x12.rank) ∈ dot_S1024x2048x12_S12x64_S1024x2048x64_2_0_01_1_n_n.lhsNonContracting by decide)]
  rfl
theorem lhs_1 (i : S1024x2048x64.Idx) (q : dot_S1024x2048x12_S12x64_S1024x2048x64_2_0_01_1_n_n.contr.Idx) :
    (dot_S1024x2048x12_S12x64_S1024x2048x64_2_0_01_1_n_n.lhsIdx i q 1).val = (i 1).val := by
  unfold DotDims.lhsIdx
  rw [dif_neg (show ¬(1 : Fin S1024x2048x12.rank) ∈ dot_S1024x2048x12_S12x64_S1024x2048x64_2_0_01_1_n_n.lhsBatch by decide),
    dif_pos (show (1 : Fin S1024x2048x12.rank) ∈ dot_S1024x2048x12_S12x64_S1024x2048x64_2_0_01_1_n_n.lhsNonContracting by decide)]
  rfl
theorem lhs_2 (i : S1024x2048x64.Idx) (q : dot_S1024x2048x12_S12x64_S1024x2048x64_2_0_01_1_n_n.contr.Idx) :
    (dot_S1024x2048x12_S12x64_S1024x2048x64_2_0_01_1_n_n.lhsIdx i q 2).val = (q ⟨0, by decide⟩).val :=
  dot_S1024x2048x12_S12x64_S1024x2048x64_2_0_01_1_n_n.lhsIdx_val_of_single rfl i q
theorem rhs_0 (i : S1024x2048x64.Idx) (q : dot_S1024x2048x12_S12x64_S1024x2048x64_2_0_01_1_n_n.contr.Idx) :
    (dot_S1024x2048x12_S12x64_S1024x2048x64_2_0_01_1_n_n.rhsIdx i q 0).val = (q ⟨0, by decide⟩).val :=
  dot_S1024x2048x12_S12x64_S1024x2048x64_2_0_01_1_n_n.rhsIdx_val_of_single rfl i q
theorem rhs_1 (i : S1024x2048x64.Idx) (q : dot_S1024x2048x12_S12x64_S1024x2048x64_2_0_01_1_n_n.contr.Idx) :
    (dot_S1024x2048x12_S12x64_S1024x2048x64_2_0_01_1_n_n.rhsIdx i q 1).val = (i 2).val := by
  unfold DotDims.rhsIdx
  rw [dif_neg (show ¬(1 : Fin S12x64.rank) ∈ dot_S1024x2048x12_S12x64_S1024x2048x64_2_0_01_1_n_n.rhsBatch by decide),
    dif_pos (show (1 : Fin S12x64.rank) ∈ dot_S1024x2048x12_S12x64_S1024x2048x64_2_0_01_1_n_n.rhsNonContracting by decide)]
  rfl

/-- The contraction at `(b, n, t)`: the sum over the twelve `k` of the left operand at `(b, n, k)` times the right
    operand at `(k, t)`. -/
theorem contraction_apply (l : FVec Ideal S1024x2048x12 .f32) (r : FVec Ideal S12x64 .f32) (b : Fin 1024) (n : Fin 2048) (t : Fin 64) :
    Host.dotGeneral dot_S1024x2048x12_S12x64_S1024x2048x64_2_0_01_1_n_n none l r (ix3 b n t) = ∑ k : Fin 12, l (ix3 b n k) * r (ix2 k t) := by
  simp only [Host.dotGeneral]
  rw [Ideal.dotGeneral_apply, ← Equiv.sum_comp (contrEquiv1 dot_S1024x2048x12_S12x64_S1024x2048x64_2_0_01_1_n_n 12 rfl rfl).symm]
  refine Finset.sum_congr rfl fun k _ => ?_
  have hk := contrEquiv1_symm_val dot_S1024x2048x12_S12x64_S1024x2048x64_2_0_01_1_n_n 12 rfl rfl k
  have el : dot_S1024x2048x12_S12x64_S1024x2048x64_2_0_01_1_n_n.lhsIdx (ix3 b n t) ((contrEquiv1 dot_S1024x2048x12_S12x64_S1024x2048x64_2_0_01_1_n_n 12 rfl rfl).symm k) = ix3 b n k :=
    funext fun a => Fin.ext (by
      match a with
      | ⟨0, _⟩ => exact lhs_0 _ _
      | ⟨1, _⟩ => exact lhs_1 _ _
      | ⟨2, _⟩ => exact (lhs_2 _ _).trans hk)
  have er : dot_S1024x2048x12_S12x64_S1024x2048x64_2_0_01_1_n_n.rhsIdx (ix3 b n t) ((contrEquiv1 dot_S1024x2048x12_S12x64_S1024x2048x64_2_0_01_1_n_n 12 rfl rfl).symm k) = ix2 k t :=
    funext fun a => Fin.ext (by
      match a with
      | ⟨0, _⟩ => exact (rhs_0 _ _).trans hk
      | ⟨1, _⟩ => exact rhs_1 _ _)
  rw [el, er]

/-! ## The logarithms and the gates at an index -/

/-- The logarithm at `(b, n, k)` is `logPq` of input row `(b, n, ·)` at `k`. -/
theorem logs_apply (x : FVec Ideal S1024x2048x6 .f32) (b : Fin 1024) (n : Fin 2048) (k : Fin 12) :
    logs x (ix3 b n k) = logPq (fun j => x (ix3 b n j)) k := by
  show Ideal.log (max (concatenate _ _ _ _ (ix3 b n k)) zeroE + epsE) = _
  rw [concat6_apply]
  unfold logPq pq
  by_cases hk : k.val < 6
  · rw [dif_pos hk, dif_pos hk] <;> rfl
  · rw [dif_neg hk, dif_neg hk] <;> rfl

/-- The gate at `(b, n, t)` is the logistic function of the weight at `(n, t)`. -/
theorem gates_apply (w : FVec Ideal S2048x64 .f32) (b : Fin 1024) (n : Fin 2048) (t : Fin 64) :
    gates w (ix3 b n t) = Ideal.logistic (w (ix2 n t)) := by
  unfold gates
  rw [broadcastInDim_apply _ _ _ (ix3 b n t) (ix3 0 n t) (fun a => by
        match a with
        | ⟨0, _⟩ => rfl
        | ⟨1, _⟩ => rfl
        | ⟨2, _⟩ => rfl),
    broadcastInDim_apply _ _ _ (ix3 0 n t) (ix2 n t) (fun a => by
        match a with
        | ⟨0, _⟩ => rfl
        | ⟨1, _⟩ => rfl)]
  show Ideal.div (Ideal.ofBits .f32 0x3F800000#32) (Ideal.ofBits .f32 0x3F800000#32 + Ideal.exp (-(w (ix2 n t)))) = _
  rw [Ideal.ofBits_one_f32]
  rfl

/-! ## The result -/

/-- A `Reduces` witness beside the printed `ReducesTo` fact: it names the summed coordinate. -/
theorem reduces_last : S1024x2048x64.Reduces [2] S1024x2048 := by decide

/-- The reference's result is `lutOut` of the arguments and the table. -/
theorem out_eq (x : FVec Ideal S1024x2048x6 .f32) (w : FVec Ideal S2048x64 .f32) :
    out x w = lutOut x w (table (F := Ideal)) := by
  funext j
  obtain ⟨b, n, rfl⟩ : ∃ (b : Fin 1024) (n : Fin 2048), j = ix2 b n := ⟨j 0, j 1, eq_ix2 j⟩
  rw [lutOut_apply]
  show Ideal.hostReduceAdd reducesTo_S1024x2048x64_S1024x2048_d2 _ (Ideal.ofBits .f32 0x00000000#32) (ix2 b n) = _
  rw [hostLastSum_apply _ reduces_last, Ideal.ofBits_zero_f32, zero_add]
  unfold cell
  refine Finset.sum_congr rfl fun t _ => ?_
  show Ideal.exp (Host.dotGeneral dot_S1024x2048x12_S12x64_S1024x2048x64_2_0_01_1_n_n none (logs x) (table (F := Ideal)) (ix3 b n t)) * gates w (ix3 b n t) = _
  rw [contraction_apply, gates_apply]
  simp only [logs_apply]

end Cert.ReferenceIdeal.HostValue

end
-- ==== Proof.lean ====
/-
  The soft six-input lookup layer: a tiled kernel against its one-line reference, equal over the extended reals.

  Both programs compute, for input `x : [1024, 2048, 6]` and weights `w : [2048, 64]`,

      out (b, n) = ∑ₜ exp (∑ₖ log (max (pq (b, n, k)) 0 + ε) · T (k, t)) · logistic (w (n, t)),

  where `pq = (1 - x, x)` along the last axis, `ε` is the same binary word on both sides and `T` is the same constant
  12 × 64 table of zeros and ones. The kernel works on 128 × 128 blocks of `(b, n)`: it flattens a block's two leading axes,
  multiplies by the table into a zero accumulator, and uses its one logistic operation; the reference contracts the whole
  array with the table and spells the logistic `1 / (1 + exp (-w))`. Over the extended reals these are the same sums of
  the same terms, and `1 / (1 + exp (-·))` is the logistic function by definition, so no law beyond reading each
  operation at an index is needed, and finiteness of the inputs is never used.

  The modules: `LutCell` states the function (`lutOut`) and reads the layout operations at an index; `KernelCell` reads the
  kernel body's result for one block; `KernelValue` goes from blocks to the whole output array and reads the kernel's
  run; `RefRun` reads the reference's run as a term and `RefValue` shows that term is `lutOut`. Here the two tables are
  identified word by word and the five claims are assembled.
-/
import proofs.«165998_j63780264346273_1_alg».proof.Defs
import proofs.«165998_j63780264346273_1_alg».proof.Proof.Gen.Kernel
import proofs.«165998_j63780264346273_1_alg».proof.Proof.Gen.Kernel.Skeleton
import proofs.«165998_j63780264346273_1_alg».proof.Proof.Gen.Kernel.Launch
import proofs.«165998_j63780264346273_1_alg».proof.Proof.Gen.Kernel.Points
import proofs.«165998_j63780264346273_1_alg».proof.Proof.Gen.Kernel.Frame
import proofs.«165998_j63780264346273_1_alg».proof.Proof.Gen.KernelIdeal
import proofs.«165998_j63780264346273_1_alg».proof.Proof.Gen.KernelIdeal.Skeleton
import proofs.«165998_j63780264346273_1_alg».proof.Proof.Gen.KernelIdeal.Launch
import proofs.«165998_j63780264346273_1_alg».proof.Proof.Gen.KernelIdeal.Points
import proofs.«165998_j63780264346273_1_alg».proof.Proof.Gen.KernelIdeal.Frame
import proofs.«165998_j63780264346273_1_alg».proof.Proof.Gen.KernelIdeal.Value
import proofs.«165998_j63780264346273_1_alg».proof.Proof.Gen.ReferenceIdeal
import proofs.«165998_j63780264346273_1_alg».proof.Proof.Gen.Pre_finite_inputs
import proofs.«165998_j63780264346273_1_alg».proof.Proof.KernelValue
import proofs.«165998_j63780264346273_1_alg».proof.Proof.RefValue
import Idealize.ShloMosaic.Adequacy
import Idealize.ShloMosaic.Init

noncomputable section

namespace Cert.Proof

open Idealize.ShloMosaic Idealize.ShloMosaic.TcCoe Idealize.SL.Sem

/-! ## The two programs' tables are one table -/

/-- The kernel's program and the reference spell the same 768 words. -/
theorem words_eq : ∀ i : Fin 768, Cert.KernelIdeal.lit0 i = Cert.ReferenceIdeal.lit0 i := by decide +kernel

/-- So their tables, read at the extended reals, are equal. -/
theorem table_eq : Cert.KernelIdeal.ArrayValue.table = Cert.ReferenceIdeal.HostRun.table (F := Ideal) :=
  funext fun i => congrArg (Ideal.ofBits .f32) (words_eq _)

/-! ## The claims -/

/-- The three frames: the two kernel programs' by their generated frame certificates, the reference's by its run with
    the result dropped. -/
theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.HostRun.run (F := Ideal) m ρ)

/-- The idealization rewrote nothing, so there is nothing to preserve. -/
theorem preserves : Cert.preserves_Kernel_KernelIdeal := trivial

/-- From memories agreeing on the arguments both programs end at `lutOut` of the arguments and the table. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.HostRun.run (F := Ideal) m' ρ')
  rw [(hagree c).1, (hagree c).2, Cert.ReferenceIdeal.HostValue.out_eq, table_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
